-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S288x256x256 : Shape := ⟨3, ![288, 256, 256]⟩
abbrev S_ : Shape := ⟨0, ![]⟩

class Facts : Prop where
  bcast_S_S288x256x256 : S_.BroadcastsInDim S288x256x256 (![] : Fin 0 → Fin S288x256x256.rank)
  reducesTo_S288x256x256_S_d0_1_2 : S288x256x256.ReducesTo [0, 1, 2] S_
  h_S_ : 0 < S_.numel

variable [Facts]

def fn {F : FTy → Type} [FloatOps F] (main_arg0 : FVec F S288x256x256 .f32) : IVec S_ 1 :=
  let main_v0 : FVec F S288x256x256 .f32 := Host.absf main_arg0
  let main_cst : FVec F S_ .f32 := constant S_ .f32 0x7F800000#32
  let main_v1 : FVec F S288x256x256 .f32 := broadcastInDim S288x256x256 ![] bcast_S_S288x256x256 main_cst
  let main_v2 : IVec S288x256x256 1 := cmpf .olt main_v0 main_v1
  let main_c : IVec S_ 1 := constantI S_ 1 1#1
  let main_v3 : IVec S_ 1 := (fun x v => Host.reduce IntOp.andi x v reducesTo_S288x256x256_S_d0_1_2 h_S_) main_v2 main_c
  main_v3
-- ==== Kernel.lean ====
abbrev S288x256x256 : Shape := ⟨3, ![288, 256, 256]⟩
abbrev S_ : Shape := ⟨0, ![]⟩
abbrev S288x258x258 : Shape := ⟨3, ![288, 258, 258]⟩
abbrev S288x9x256x256 : Shape := ⟨4, ![288, 9, 256, 256]⟩
abbrev S6x258x258 : Shape := ⟨3, ![6, 258, 258]⟩
abbrev S6x9x256x256 : Shape := ⟨4, ![6, 9, 256, 256]⟩
abbrev S6x256x256 : Shape := ⟨3, ![6, 256, 256]⟩
abbrev S6x1x256x256 : Shape := ⟨4, ![6, 1, 256, 256]⟩
abbrev S2592x256x256 : Shape := ⟨3, ![2592, 256, 256]⟩

abbrev nBuf : Space → Nat
  | .hbm => 6
  | .vmem => 4
  | .smem => 0
  | _ => 0

abbrev bufTy : (tb : Table) → Fin (tcTables nBuf tb) → BufTy
  | .hbm, ⟨0, _⟩ => ⟨S288x256x256, .f32⟩
  | .hbm, ⟨1, _⟩ => ⟨S_, .i32⟩
  | .hbm, ⟨2, _⟩ => ⟨S_, .f32⟩
  | .hbm, ⟨3, _⟩ => ⟨S288x258x258, .f32⟩
  | .hbm, ⟨4, _⟩ => ⟨S288x9x256x256, .f32⟩
  | .hbm, ⟨5, _⟩ => ⟨S2592x256x256, .f32⟩
  | .local _ .vmem, ⟨0, _⟩ => ⟨S6x258x258, .f32⟩
  | .local _ .vmem, ⟨1, _⟩ => ⟨S6x258x258, .f32⟩
  | .local _ .vmem, ⟨2, _⟩ => ⟨S6x9x256x256, .f32⟩
  | .local _ .vmem, ⟨3, _⟩ => ⟨S6x9x256x256, .f32⟩
  | _, _ => ⟨S288x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S6x258x258 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x9x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S288x256x256_S288x258x258_000_110_110 : S288x256x256.Pads (![0, 1, 1] : Fin 3 → Nat) ![0, 1, 1] ![0, 0, 0] S288x258x258
  h_S_ : 0 < S_.numel
  inb_S6x258x258_S6x256x256_0_0_0 : ∀ a, (![0, 0, 0] : Fin 3 → Nat) a + S6x256x256.size a ≤ S6x258x258.size a
  h_S6x256x256 : 0 < S6x256x256.numel
  shapeCasts_S6x256x256_S6x256x256 : S6x256x256.ShapeCasts S6x256x256
  inb_S6x9x256x256_S6x1x256x256_0_0_0_0 : ∀ a, (![0, 0, 0, 0] : Fin 4 → Nat) a + S6x1x256x256.size a ≤ S6x9x256x256.size a
  h_S6x1x256x256 : 0 < S6x1x256x256.numel
  shapeCasts_S6x1x256x256_S6x256x256 : S6x1x256x256.ShapeCasts S6x256x256
  shapeCasts_S6x256x256_S6x1x256x256 : S6x256x256.ShapeCasts S6x1x256x256
  inb_S6x258x258_S6x256x256_0_0_1 : ∀ a, (![0, 0, 1] : Fin 3 → Nat) a + S6x256x256.size a ≤ S6x258x258.size a
  inb_S6x9x256x256_S6x1x256x256_0_1_0_0 : ∀ a, (![0, 1, 0, 0] : Fin 4 → Nat) a + S6x1x256x256.size a ≤ S6x9x256x256.size a
  inb_S6x258x258_S6x256x256_0_0_2 : ∀ a, (![0, 0, 2] : Fin 3 → Nat) a + S6x256x256.size a ≤ S6x258x258.size a
  inb_S6x9x256x256_S6x1x256x256_0_2_0_0 : ∀ a, (![0, 2, 0, 0] : Fin 4 → Nat) a + S6x1x256x256.size a ≤ S6x9x256x256.size a
  inb_S6x258x258_S6x256x256_0_1_0 : ∀ a, (![0, 1, 0] : Fin 3 → Nat) a + S6x256x256.size a ≤ S6x258x258.size a
  inb_S6x9x256x256_S6x1x256x256_0_3_0_0 : ∀ a, (![0, 3, 0, 0] : Fin 4 → Nat) a + S6x1x256x256.size a ≤ S6x9x256x256.size a
  inb_S6x258x258_S6x256x256_0_1_1 : ∀ a, (![0, 1, 1] : Fin 3 → Nat) a + S6x256x256.size a ≤ S6x258x258.size a
  inb_S6x9x256x256_S6x1x256x256_0_4_0_0 : ∀ a, (![0, 4, 0, 0] : Fin 4 → Nat) a + S6x1x256x256.size a ≤ S6x9x256x256.size a
  inb_S6x258x258_S6x256x256_0_1_2 : ∀ a, (![0, 1, 2] : Fin 3 → Nat) a + S6x256x256.size a ≤ S6x258x258.size a
  inb_S6x9x256x256_S6x1x256x256_0_5_0_0 : ∀ a, (![0, 5, 0, 0] : Fin 4 → Nat) a + S6x1x256x256.size a ≤ S6x9x256x256.size a
  inb_S6x258x258_S6x256x256_0_2_0 : ∀ a, (![0, 2, 0] : Fin 3 → Nat) a + S6x256x256.size a ≤ S6x258x258.size a
  inb_S6x9x256x256_S6x1x256x256_0_6_0_0 : ∀ a, (![0, 6, 0, 0] : Fin 4 → Nat) a + S6x1x256x256.size a ≤ S6x9x256x256.size a
  inb_S6x258x258_S6x256x256_0_2_1 : ∀ a, (![0, 2, 1] : Fin 3 → Nat) a + S6x256x256.size a ≤ S6x258x258.size a
  inb_S6x9x256x256_S6x1x256x256_0_7_0_0 : ∀ a, (![0, 7, 0, 0] : Fin 4 → Nat) a + S6x1x256x256.size a ≤ S6x9x256x256.size a
  inb_S6x258x258_S6x256x256_0_2_2 : ∀ a, (![0, 2, 2] : Fin 3 → Nat) a + S6x256x256.size a ≤ S6x258x258.size a
  inb_S6x9x256x256_S6x1x256x256_0_8_0_0 : ∀ a, (![0, 8, 0, 0] : Fin 4 → Nat) a + S6x1x256x256.size a ≤ S6x9x256x256.size a
  shapeCasts_S288x9x256x256_S2592x256x256 : S288x9x256x256.ShapeCasts S2592x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x258x258.size a ≤ S288x258x258.size a
  hwx0_0 : ∀ i : grid0.Coords, EltTy.bits .f32 = 32 ∨ (Rect.block (s := S288x258x258) S6x258x258.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x9x256x256.size a ≤ S288x9x256x256.size a
  hwx0_1 : ∀ i : grid0.Coords, EltTy.bits .f32 = 32 ∨ (Rect.block (s := S288x9x256x256) S6x9x256x256.size (cc0_transform_1 i) (hinb0_1 i)).WholeWords (EltTy.packing .f32)

variable [Facts₀]

abbrev win0_0 : Pipeline.Window sig grid0 :=
  Pipeline.Window.ofSpec (Memref.whole main_v0) S6x258x258.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6x9x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S288x256x256 : Shape := ⟨3, ![288, 256, 256]⟩
abbrev S_ : Shape := ⟨0, ![]⟩
abbrev S288x258x258 : Shape := ⟨3, ![288, 258, 258]⟩
abbrev S288x1x256x256 : Shape := ⟨4, ![288, 1, 256, 256]⟩
abbrev S288x9x256x256 : Shape := ⟨4, ![288, 9, 256, 256]⟩
abbrev S2592x256x256 : Shape := ⟨3, ![2592, 256, 256]⟩

abbrev nBuf : Space → Nat
  | .hbm => 24
  | .vmem => 0
  | .smem => 0
  | _ => 0

abbrev bufTy : (tb : Table) → Fin (tcTables nBuf tb) → BufTy
  | .hbm, ⟨0, _⟩ => ⟨S288x256x256, .f32⟩
  | .hbm, ⟨1, _⟩ => ⟨S_, .i32⟩
  | .hbm, ⟨2, _⟩ => ⟨S_, .f32⟩
  | .hbm, ⟨3, _⟩ => ⟨S288x258x258, .f32⟩
  | .hbm, ⟨4, _⟩ => ⟨S288x256x256, .f32⟩
  | .hbm, ⟨5, _⟩ => ⟨S288x256x256, .f32⟩
  | .hbm, ⟨6, _⟩ => ⟨S288x256x256, .f32⟩
  | .hbm, ⟨7, _⟩ => ⟨S288x256x256, .f32⟩
  | .hbm, ⟨8, _⟩ => ⟨S288x256x256, .f32⟩
  | .hbm, ⟨9, _⟩ => ⟨S288x256x256, .f32⟩
  | .hbm, ⟨10, _⟩ => ⟨S288x256x256, .f32⟩
  | .hbm, ⟨11, _⟩ => ⟨S288x256x256, .f32⟩
  | .hbm, ⟨12, _⟩ => ⟨S288x256x256, .f32⟩
  | .hbm, ⟨13, _⟩ => ⟨S288x1x256x256, .f32⟩
  | .hbm, ⟨14, _⟩ => ⟨S288x1x256x256, .f32⟩
  | .hbm, ⟨15, _⟩ => ⟨S288x1x256x256, .f32⟩
  | .hbm, ⟨16, _⟩ => ⟨S288x1x256x256, .f32⟩
  | .hbm, ⟨17, _⟩ => ⟨S288x1x256x256, .f32⟩
  | .hbm, ⟨18, _⟩ => ⟨S288x1x256x256, .f32⟩
  | .hbm, ⟨19, _⟩ => ⟨S288x1x256x256, .f32⟩
  | .hbm, ⟨20, _⟩ => ⟨S288x1x256x256, .f32⟩
  | .hbm, ⟨21, _⟩ => ⟨S288x1x256x256, .f32⟩
  | .hbm, ⟨22, _⟩ => ⟨S288x9x256x256, .f32⟩
  | .hbm, ⟨23, _⟩ => ⟨S2592x256x256, .f32⟩
  | _, _ => ⟨S288x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]

class Facts₀ : Prop where
  pads_S288x256x256_S288x258x258_000_110_110 : S288x256x256.Pads (![0, 1, 1] : Fin 3 → Nat) ![0, 1, 1] ![0, 0, 0] S288x258x258
  h_S_ : 0 < S_.numel
  slices_S288x258x258_S288x256x256_0_0_0 : S288x258x258.Slices ![0, 0, 0] S288x256x256
  slices_S288x258x258_S288x256x256_0_0_1 : S288x258x258.Slices ![0, 0, 1] S288x256x256
  slices_S288x258x258_S288x256x256_0_0_2 : S288x258x258.Slices ![0, 0, 2] S288x256x256
  slices_S288x258x258_S288x256x256_0_1_0 : S288x258x258.Slices ![0, 1, 0] S288x256x256
  slices_S288x258x258_S288x256x256_0_1_1 : S288x258x258.Slices ![0, 1, 1] S288x256x256
  slices_S288x258x258_S288x256x256_0_1_2 : S288x258x258.Slices ![0, 1, 2] S288x256x256
  slices_S288x258x258_S288x256x256_0_2_0 : S288x258x258.Slices ![0, 2, 0] S288x256x256
  slices_S288x258x258_S288x256x256_0_2_1 : S288x258x258.Slices ![0, 2, 1] S288x256x256
  slices_S288x258x258_S288x256x256_0_2_2 : S288x258x258.Slices ![0, 2, 2] S288x256x256
  bcast_S288x256x256_S288x1x256x256_0_2_3 : S288x256x256.BroadcastsInDim S288x1x256x256 (![0, 2, 3] : Fin 3 → Fin S288x1x256x256.rank)
  concatenates_S288x1x256x256_S288x1x256x256_S288x1x256x256_S288x1x256x256_S288x1x256x256_S288x1x256x256_S288x1x256x256_S288x1x256x256_S288x1x256x256_S288x9x256x256_d1 : Shape.Concatenates [S288x1x256x256, S288x1x256x256, S288x1x256x256, S288x1x256x256, S288x1x256x256, S288x1x256x256, S288x1x256x256, S288x1x256x256, S288x1x256x256] S288x9x256x256 1
  shapeCasts_S288x9x256x256_S2592x256x256 : S288x9x256x256.ShapeCasts S2592x256x256

variable [Facts₀]

class Facts : Prop extends Facts₀ where

variable [Facts]
-- ==== Proof.ShiftSpec.lean ====
/-
  The result both programs compute, as ONE function of the zero-padded image stack.

  The input is 288 channels of 256 × 256; padding one zero row and column on every side gives 288 channels of
  258 × 258. For each channel the result holds the nine 256 × 256 sub-images at the offsets (dy, dx), dy, dx ∈ {0, 1, 2},
  in the order s = 3·dy + dx. So entry (ch, s, h, w) of the [288, 9, 256, 256] array is the padded array at
  (ch, s / 3 + h, s % 3 + w): `tap` is that index map and `stack9` the array read through it. The leading extent is
  kept a parameter, because the same map describes a block of six channels and the whole array.

  Two ways of producing one of the nine sub-images are then read at an index and shown to be `stack9`:
  a load of the padded block through the rectangle at offsets (0, dy, dx) that is stored, as a [6, 1, 256, 256] piece,
  at offsets (0, s, 0, 0) (`block_piece`); and a slice at offsets (0, dy, dx) broadcast to a unit axis 1
  (`host_piece`). No arithmetic is done on the entries, so nothing here depends on what the entries are.
-/
import Idealize.ShloMosaic.Lib.ValueIdx
import Idealize.ShloMosaic.Lib.Pipeline.Value
import Idealize.ShloMosaic.Lib.Pipeline.FrameBody

noncomputable section

namespace Cert.Shift

open Idealize.ShloMosaic Idealize.ShloMosaic.ValueIdx

/-- Entry (ch, s, h, w) of the stack reads channel ch of the padded array at row s / 3 + h and column s % 3 + w. -/
def tap {n : Nat} (j : (⟨4, ![n, 9, 256, 256]⟩ : Shape).Idx) : (⟨3, ![n, 258, 258]⟩ : Shape).Idx :=
  ix3 (n0 := n) (n1 := 258) (n2 := 258) ⟨(j 0).val, (j 0).isLt⟩
    ⟨(j 1).val / 3 + (j 2).val, by
      have h1 : (j 1).val < 9 := (j 1).isLt
      have h2 : (j 2).val < 256 := (j 2).isLt
      omega⟩
    ⟨(j 1).val % 3 + (j 3).val, by
      have h3 : (j 3).val < 256 := (j 3).isLt
      omega⟩

theorem tap_val0 {n : Nat} (j : (⟨4, ![n, 9, 256, 256]⟩ : Shape).Idx) : (tap j 0).val = (j 0).val := rfl
theorem tap_val1 {n : Nat} (j : (⟨4, ![n, 9, 256, 256]⟩ : Shape).Idx) :
    (tap j 1).val = (j 1).val / 3 + (j 2).val := rfl
theorem tap_val2 {n : Nat} (j : (⟨4, ![n, 9, 256, 256]⟩ : Shape).Idx) :
    (tap j 2).val = (j 1).val % 3 + (j 3).val := rfl

/-- The nine shifted sub-images of every channel of a padded array `P`, stacked along axis 1. -/
def stack9 {α : Type} {n : Nat} (P : (⟨3, ![n, 258, 258]⟩ : Shape).Idx → α) :
    (⟨4, ![n, 9, 256, 256]⟩ : Shape).Idx → α :=
  fun j => P (tap j)

/-- A block of six padded channels loaded through the 6 × 256 × 256 rectangle at offsets (0, dy, dx), viewed as a
    [6, 1, 256, 256] piece: at the piece's index x it is the block's `stack9` at the index x has under the rectangle at
    offsets (0, s, 0, 0) of the [6, 9, 256, 256] block, when s = 3·dy + dx. -/
theorem block_piece {Val : EltTy → Type} {e : EltTy} (X : (⟨3, ![6, 258, 258]⟩ : Shape).Idx → Val e) (dy dx s : Nat) (hs : s = 3 * dy + dx)
    (hdx : dx < 3)
    (inb_in : ∀ a, (![0, dy, dx] : Fin 3 → Nat) a + (⟨3, ![6, 256, 256]⟩ : Shape).size a
      ≤ (⟨3, ![6, 258, 258]⟩ : Shape).size a)
    (inb_out : ∀ a, (![0, s, 0, 0] : Fin 4 → Nat) a + (⟨4, ![6, 1, 256, 256]⟩ : Shape).size a
      ≤ (⟨4, ![6, 9, 256, 256]⟩ : Shape).size a)
    (h1 : (⟨3, ![6, 256, 256]⟩ : Shape).ShapeCasts ⟨3, ![6, 256, 256]⟩)
    (h2 : (⟨3, ![6, 256, 256]⟩ : Shape).ShapeCasts ⟨4, ![6, 1, 256, 256]⟩)
    (x : (⟨4, ![6, 1, 256, 256]⟩ : Shape).Idx) :
    shapeCast ⟨4, ![6, 1, 256, 256]⟩
        (shapeCast ⟨3, ![6, 256, 256]⟩
          (View.ld (Val := Val) (e' := e) X (Rect.unit (s := ⟨3, ![6, 258, 258]⟩) ![0, dy, dx] (⟨3, ![6, 256, 256]⟩ : Shape).size inb_in)) h1)
        h2 x
      = stack9 X ((Rect.unit (s := ⟨4, ![6, 9, 256, 256]⟩) ![0, s, 0, 0]
          (⟨4, ![6, 1, 256, 256]⟩ : Shape).size inb_out).emb x) := by
  have hx1 : (x 1).val = 0 := by
    have h : (x 1).val < 1 := (x 1).isLt
    omega
  refine (shapeCast_apply _ h2 x (ix3 (n0 := 6) (n1 := 256) (n2 := 256) (x 0) (x 2) (x 3)) ?_).trans
    ((congrFun (shapeCast_self _ h1) _).trans ?_)
  · rw [Shape.rowMajor_val_three, Shape.rowMajor_val_four]
    show ((x 0).val * 256 + (x 2).val) * 256 + (x 3).val
      = (((x 0).val * 1 + (x 1).val) * 256 + (x 2).val) * 256 + (x 3).val
    omega
  · unfold stack9
    show X _ = X _
    refine congrArg X (funext fun a => Fin.ext ?_)
    match a with
    | ⟨0, _⟩ =>
      show 0 + 1 * (x 0).val = 0 + 1 * (x 0).val
      rfl
    | ⟨1, _⟩ =>
      show dy + 1 * (x 2).val = (s + 1 * (x 1).val) / 3 + (0 + 1 * (x 2).val)
      omega
    | ⟨2, _⟩ =>
      show dx + 1 * (x 3).val = (s + 1 * (x 1).val) % 3 + (0 + 1 * (x 3).val)
      omega

/-- The slice of a padded array at offsets (0, dy, dx), given a unit axis 1 by a broadcast: at (ch, 0, h, w) it is
    `stack9` of the array at (ch, s, h, w), when s = 3·dy + dx. -/
theorem host_piece {α : Type} (P : (⟨3, ![288, 258, 258]⟩ : Shape).Idx → α) (dy dx : Nat) (hdx : dx < 3)
    (hsl : (⟨3, ![288, 258, 258]⟩ : Shape).Slices ![0, dy, dx] ⟨3, ![288, 256, 256]⟩)
    (hb : (⟨3, ![288, 256, 256]⟩ : Shape).BroadcastsInDim ⟨4, ![288, 1, 256, 256]⟩
      (![0, 2, 3] : Fin 3 → Fin 4))
    (j : (⟨4, ![288, 9, 256, 256]⟩ : Shape).Idx) (hj : (j 1).val = 3 * dy + dx)
    (i : (⟨4, ![288, 1, 256, 256]⟩ : Shape).Idx) (hi0 : (i 0).val = (j 0).val) (hi2 : (i 2).val = (j 2).val)
    (hi3 : (i 3).val = (j 3).val) :
    broadcastInDim ⟨4, ![288, 1, 256, 256]⟩ ![0, 2, 3] hb
        (extractStridedSlice ⟨3, ![288, 256, 256]⟩ ![0, dy, dx] P hsl) i
      = stack9 P j := by
  refine (broadcastInDim_apply _ hb _ i
    (ix3 (n0 := 288) (n1 := 256) (n2 := 256) ⟨(j 0).val, (j 0).isLt⟩ ⟨(j 2).val, (j 2).isLt⟩ ⟨(j 3).val, (j 3).isLt⟩)
    (fun a => ?_)).trans ?_
  · match a with
    | ⟨0, _⟩ =>
      show (j 0).val = if (288 : Nat) = 1 then 0 else (i 0).val
      rw [if_neg (by decide), hi0]
    | ⟨1, _⟩ =>
      show (j 2).val = if (256 : Nat) = 1 then 0 else (i 2).val
      rw [if_neg (by decide), hi2]
    | ⟨2, _⟩ =>
      show (j 3).val = if (256 : Nat) = 1 then 0 else (i 3).val
      rw [if_neg (by decide), hi3]
  · unfold stack9
    refine extractStridedSlice_apply _ P hsl _ (tap j) (fun a => ?_)
    match a with
    | ⟨0, _⟩ =>
      show (j 0).val = 0 + (j 0).val
      omega
    | ⟨1, _⟩ =>
      show (j 1).val / 3 + (j 2).val = dy + (j 2).val
      omega
    | ⟨2, _⟩ =>
      show (j 1).val % 3 + (j 3).val = dx + (j 3).val
      omega

end Cert.Shift

end
-- ==== Proof.KernelValue.lean ====
/-
  What the idealized kernel program leaves in its result array.

  The program pads the input to 288 channels of 258 × 258, runs the copying kernel on 48 grid points — point t takes
  channels 6t … 6t + 5 of the padded array and writes the [6, 9, 256, 256] block t of the [288, 9, 256, 256] array —
  and reshapes that array to [2592, 256, 256]. The body's nine stores tile the output block, store s holding the
  loaded sub-image at offsets (s / 3, s % 3); so the block is `stack9` of the input block (`out_eq`). Block t of the
  padded array read through `tap` is `tap` of block t of the output (the two index maps move together along the channel
  axis and are zero on the others: `idx_facts`), so what point t writes back is block t of `stack9` of the padded array
  (`flushed_eq`); the 48 blocks cover the array (`final`), and the reshape after the region is applied to it (`run`).
-/
import proofs.«103104_j89936615179047_1_alg».proof.Proof.Gen.KernelIdeal.Frame
import proofs.«103104_j89936615179047_1_alg».proof.Proof.ShiftSpec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Shift

variable {F : FTy → Type} [FloatOps F]
variable (m : (ℓ : Loc nD τ sig) → Buf (Elt F) ℓ) (ρ : Dev nD → PrngReg)

/-- The body's nine stores leave, in the output block, the nine shifted sub-images of the six padded channels. -/
theorem out_eq (x0 : Vec F S6x258x258 .f32) : out0_1 x0 = stack9 x0 := by
  funext y
  unfold out0_1
  refine View.canon_apply_of_pieces (stack9 x0) _ ?_ y (cover0_1 _ _ _ _ _ _ _ _ _ y)
  intro p hp x
  simp only [List.mem_cons, List.mem_nil_iff, or_false] at hp
  rcases hp with rfl | rfl | rfl | rfl | rfl | rfl | rfl | rfl | rfl
  · exact block_piece x0 2 2 8 rfl (by decide) inb_S6x258x258_S6x256x256_0_2_2
      inb_S6x9x256x256_S6x1x256x256_0_8_0_0 shapeCasts_S6x256x256_S6x256x256 shapeCasts_S6x256x256_S6x1x256x256 x
  · exact block_piece x0 2 1 7 rfl (by decide) inb_S6x258x258_S6x256x256_0_2_1
      inb_S6x9x256x256_S6x1x256x256_0_7_0_0 shapeCasts_S6x256x256_S6x256x256 shapeCasts_S6x256x256_S6x1x256x256 x
  · exact block_piece x0 2 0 6 rfl (by decide) inb_S6x258x258_S6x256x256_0_2_0
      inb_S6x9x256x256_S6x1x256x256_0_6_0_0 shapeCasts_S6x256x256_S6x256x256 shapeCasts_S6x256x256_S6x1x256x256 x
  · exact block_piece x0 1 2 5 rfl (by decide) inb_S6x258x258_S6x256x256_0_1_2
      inb_S6x9x256x256_S6x1x256x256_0_5_0_0 shapeCasts_S6x256x256_S6x256x256 shapeCasts_S6x256x256_S6x1x256x256 x
  · exact block_piece x0 1 1 4 rfl (by decide) inb_S6x258x258_S6x256x256_0_1_1
      inb_S6x9x256x256_S6x1x256x256_0_4_0_0 shapeCasts_S6x256x256_S6x256x256 shapeCasts_S6x256x256_S6x1x256x256 x
  · exact block_piece x0 1 0 3 rfl (by decide) inb_S6x258x258_S6x256x256_0_1_0
      inb_S6x9x256x256_S6x1x256x256_0_3_0_0 shapeCasts_S6x256x256_S6x256x256 shapeCasts_S6x256x256_S6x1x256x256 x
  · exact block_piece x0 0 2 2 rfl (by decide) inb_S6x258x258_S6x256x256_0_0_2
      inb_S6x9x256x256_S6x1x256x256_0_2_0_0 shapeCasts_S6x256x256_S6x256x256 shapeCasts_S6x256x256_S6x1x256x256 x
  · exact block_piece x0 0 1 1 rfl (by decide) inb_S6x258x258_S6x256x256_0_0_1
      inb_S6x9x256x256_S6x1x256x256_0_1_0_0 shapeCasts_S6x256x256_S6x256x256 shapeCasts_S6x256x256_S6x1x256x256 x
  · exact block_piece x0 0 0 0 rfl (by decide) inb_S6x258x258_S6x256x256_0_0_0
      inb_S6x9x256x256_S6x1x256x256_0_0_0_0 shapeCasts_S6x256x256_S6x256x256 shapeCasts_S6x256x256_S6x1x256x256 x

/-- The padded array as the region finds it. -/
abbrev padded (c : Dev nD) : Vec F S288x258x258 .f32 := V m c main_v0

/-- The host operations before the region leave, at the kernel's operand, the input padded by one zero row and column on
    every side of each channel. -/
theorem padded_eq (c : Dev nD) :
    padded m c = pad S288x258x258 ![0, 1, 1] ![0, 1, 1] ![0, 0, 0] (m ((c : Thread nD τ).loc main_arg0))
      (sitofp .f32 (constantI S_ 32 0#32)) pads_S288x256x256_S288x258x258_000_110_110 h_S_ := by
  show V m c main_v0 = _
  dsimp only [V, V0]
  simp only [hostOps0, hostOps0_1, List.flatten_cons, List.flatten_nil, List.append_nil, List.cons_append,
    List.nil_append]
  after_results
  rfl

/-- The two index maps over the grid: both windows step one block along the channel axis per point and stay at block 0
    on the other axes. -/
theorem idx_facts : ∀ t : Fin cfg0.N, win0_0.index t (0 : Fin 3) = t.val ∧ win0_0.index t (1 : Fin 3) = 0
    ∧ win0_0.index t (2 : Fin 3) = 0 ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- What point t writes back is block t of the nine shifted sub-images of the whole padded array. -/
theorem flushed_eq (c : Dev nD) (t : Fin cfg0.N) :
    (dats m 0 c).flushed 1 t = ((cfg0.win 1).blk t).view.read (Elt F) (stack9 (padded m c)) := by
  show (cfg0.win 1).cut (grid0.coords t) ((dats m 0 c).after 1 t) = _
  rw [after0_1, out_eq]
  obtain ⟨e0, e1, e2, e3, e4, e5, e6⟩ := idx_facts t
  funext y
  show iblk m c 0 t (tap y) = padded m c (tap (((cfg0.win 1).blk t).view.emb y))
  unfold iblk
  rw [View.read_apply]
  show V m c main_v0 (((cfg0.win 0).blk t).view.emb (tap y)) = V m c main_v0 _
  refine congrArg (V m c main_v0) (funext fun a => Fin.ext ?_)
  match a with
  | ⟨0, _⟩ =>
    show win0_0.index t (0 : Fin 3) * 6 + 1 * (y 0).val = win0_1.index t (0 : Fin 4) * 6 + 1 * (y 0).val
    omega
  | ⟨1, _⟩ =>
    show win0_0.index t (1 : Fin 3) * 258 + 1 * ((y 1).val / 3 + (y 2).val)
      = (win0_1.index t (1 : Fin 4) * 9 + 1 * (y 1).val) / 3 + (win0_1.index t (2 : Fin 4) * 256 + 1 * (y 2).val)
    omega
  | ⟨2, _⟩ =>
    show win0_0.index t (2 : Fin 3) * 258 + 1 * ((y 1).val % 3 + (y 3).val)
      = (win0_1.index t (1 : Fin 4) * 9 + 1 * (y 1).val) % 3 + (win0_1.index t (3 : Fin 4) * 256 + 1 * (y 3).val)
    omega

/-- An index of the [288, 9, 256, 256] array is in point t's block iff each coordinate is in the block's range. -/
theorem mem_blk (t : Fin cfg0.N) (i : S288x9x256x256.Idx) :
    i ∈ ((cfg0.win 1).blk t).view.set ↔ ∀ a : Fin 4, win0_1.index t a * S6x9x256x256.size a ≤ (i a).val
      ∧ (i a).val < win0_1.index t a * S6x9x256x256.size a + S6x9x256x256.size a := by
  show i ∈ ((View.whole main_v1).slice (win0_1.rect t)).set ↔ _
  rw [View.set_slice_whole, Rect.mem_set_unit]
  exact Iff.rfl

/-- The 48 blocks of six channels cover the array, so it ends holding the nine shifted sub-images of every channel. -/
theorem final (c : Dev nD) : (dats m 0 c).arrAt 1 cfg0.N = stack9 (padded m c) :=
  (dats m 0 c).arrAt_eq_of_cover 1 (stack9 (padded m c)) (fun t _ => flushed_eq m c t) fun i => by
    have h0 : (i 0).val < 288 := (i 0).isLt
    have h1 : (i 1).val < 9 := (i 1).isLt
    have h2 : (i 2).val < 256 := (i 2).isLt
    have h3 : (i 3).val < 256 := (i 3).isLt
    refine ⟨⟨(i 0).val / 6, by rw [show cfg0.N = 48 from N_0]; omega⟩, flush0_1 _, ?_⟩
    obtain ⟨e0, e1, e2, e3, e4, e5, e6⟩ := idx_facts ⟨(i 0).val / 6, by rw [show cfg0.N = 48 from N_0]; omega⟩
    rw [mem_blk]
    intro a
    match a with
    | ⟨0, _⟩ =>
      show win0_1.index _ (0 : Fin 4) * 6 ≤ (i 0).val ∧ (i 0).val < win0_1.index _ (0 : Fin 4) * 6 + 6
      rw [e3]; show (i 0).val / 6 * 6 ≤ (i 0).val ∧ (i 0).val < (i 0).val / 6 * 6 + 6; omega
    | ⟨1, _⟩ =>
      show win0_1.index _ (1 : Fin 4) * 9 ≤ (i 1).val ∧ (i 1).val < win0_1.index _ (1 : Fin 4) * 9 + 9
      rw [e4]; omega
    | ⟨2, _⟩ =>
      show win0_1.index _ (2 : Fin 4) * 256 ≤ (i 2).val ∧ (i 2).val < win0_1.index _ (2 : Fin 4) * 256 + 256
      rw [e5]; omega
    | ⟨3, _⟩ =>
      show win0_1.index _ (3 : Fin 4) * 256 ≤ (i 3).val ∧ (i 3).val < win0_1.index _ (3 : Fin 4) * 256 + 256
      rw [e6]; omega

/-- The reshape after the region is applied to the array the region left. -/
theorem tail_eq (c : Dev nD) :
    Pipeline.afterTail₀ cfgs (dats m) 0 (V0 m) [hostOps1] c main_v2
      = shapeCast S2592x256x256 (stack9 (padded m c)) shapeCasts_S288x9x256x256_S2592x256x256 := by
  unfold Pipeline.afterTail₀
  show StableHlo.after hostOps1 _ (Proc.devRef .tc main_v2) = _
  after_results
  rw [(Pipeline.withArrays_arr spec0 launch0.win.arr_inj c _ _ 1).trans (final m c)]
  rfl

/-- The run, read: the result is the reshaped stack of shifted sub-images of the padded input; the input is unchanged. -/
theorem run : θ_run defs (onTc (τ := τ) (main (F := F))) ⟨m, fun _ => 0, ρ⟩ fun r => ∀ c : Dev nD,
      r.2.mem ((c : Thread nD τ).loc main_v2)
        = shapeCast S2592x256x256 (stack9 (padded m c)) shapeCasts_S288x9x256x256_S2592x256x256
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.KernelIdeal.Hand

end
-- ==== Proof.ReferenceValue.lean ====
/-
  What the idealized reference program leaves in its result array.

  The reference pads the input the same way, takes the nine 256 × 256 slices of the padded array at the offsets
  (dy, dx), gives each a unit axis 1 by a broadcast, concatenates the nine along that axis and reshapes. A concatenation
  of nine pieces of extent one along axis 1, read at (ch, s, h, w), is piece s at (ch, 0, h, w); piece s = 3·dy + dx is the
  slice at offsets (0, dy, dx), which at (ch, h, w) is the padded array at (ch, dy + h, dx + w). So the concatenation is
  `stack9` of the padded array (`stack_eq`), and the result its reshape (`result_eq`).
-/
import proofs.«103104_j89936615179047_1_alg».proof.Proof.Gen.ReferenceIdeal.Read
import proofs.«103104_j89936615179047_1_alg».proof.Proof.ShiftSpec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.ReferenceIdeal.Hand

open Cert.ReferenceIdeal Cert.ReferenceIdeal.Gen Cert.ReferenceIdeal.Read Cert.Shift

variable {F : FTy → Type} [FloatOps F]

/-- The nine broadcast slices in the order they are concatenated: position s holds the slice at offsets (s / 3, s % 3). -/
def pieces (x0 : (⟨S288x256x256, .f32⟩ : BufTy).Contents (Elt F)) : Fin 9 → (S288x1x256x256.Idx → Elt F .f32) :=
  ![val_main_v10 (F := F) x0, val_main_v11 (F := F) x0, val_main_v12 (F := F) x0, val_main_v13 (F := F) x0,
    val_main_v14 (F := F) x0, val_main_v15 (F := F) x0, val_main_v16 (F := F) x0, val_main_v17 (F := F) x0,
    val_main_v18 (F := F) x0]

/-- The concatenation of the nine broadcast slices is the stack of the nine shifted sub-images of the padded array. -/
theorem stack_eq (x0 : (⟨S288x256x256, .f32⟩ : BufTy).Contents (Elt F)) :
    val_main_v19 (F := F) x0 = stack9 (val_main_v0 (F := F) x0) := by
  funext j
  have h1 : (j 1).val < 9 := (j 1).isLt
  unfold val_main_v19
  show concatenate S288x9x256x256 1
      (List.ofFn fun n : Fin 9 => (⟨S288x1x256x256, pieces x0 n⟩ : (s : Shape) × (s.Idx → Elt F .f32))) _ j = _
  refine (concatenate_ofFn_unit_apply (t := S288x9x256x256) (s₁ := S288x1x256x256) (1 : Fin 4) (pieces x0) _ rfl rfl j
    ⟨(j 1).val, h1⟩ rfl
    (ix4 (n0 := 288) (n1 := 1) (n2 := 256) (n3 := 256) ⟨(j 0).val, (j 0).isLt⟩ ⟨0, Nat.one_pos⟩
      ⟨(j 2).val, (j 2).isLt⟩ ⟨(j 3).val, (j 3).isLt⟩)
    (fun b hb => ?_)).trans ?_
  · match b with
    | ⟨0, _⟩ => rfl
    | ⟨1, _⟩ => exact absurd rfl hb
    | ⟨2, _⟩ => rfl
    | ⟨3, _⟩ => rfl
  · obtain ⟨k, hk⟩ : ∃ k : Fin 9, k = ⟨(j 1).val, h1⟩ := ⟨_, rfl⟩
    rw [← hk]
    have hkv : (j 1).val = k.val := by rw [hk]
    fin_cases k
    · exact host_piece (val_main_v0 (F := F) x0) 0 0 (by decide) slices_S288x258x258_S288x256x256_0_0_0
        bcast_S288x256x256_S288x1x256x256_0_2_3 j hkv _ rfl rfl rfl
    · exact host_piece (val_main_v0 (F := F) x0) 0 1 (by decide) slices_S288x258x258_S288x256x256_0_0_1
        bcast_S288x256x256_S288x1x256x256_0_2_3 j hkv _ rfl rfl rfl
    · exact host_piece (val_main_v0 (F := F) x0) 0 2 (by decide) slices_S288x258x258_S288x256x256_0_0_2
        bcast_S288x256x256_S288x1x256x256_0_2_3 j hkv _ rfl rfl rfl
    · exact host_piece (val_main_v0 (F := F) x0) 1 0 (by decide) slices_S288x258x258_S288x256x256_0_1_0
        bcast_S288x256x256_S288x1x256x256_0_2_3 j hkv _ rfl rfl rfl
    · exact host_piece (val_main_v0 (F := F) x0) 1 1 (by decide) slices_S288x258x258_S288x256x256_0_1_1
        bcast_S288x256x256_S288x1x256x256_0_2_3 j hkv _ rfl rfl rfl
    · exact host_piece (val_main_v0 (F := F) x0) 1 2 (by decide) slices_S288x258x258_S288x256x256_0_1_2
        bcast_S288x256x256_S288x1x256x256_0_2_3 j hkv _ rfl rfl rfl
    · exact host_piece (val_main_v0 (F := F) x0) 2 0 (by decide) slices_S288x258x258_S288x256x256_0_2_0
        bcast_S288x256x256_S288x1x256x256_0_2_3 j hkv _ rfl rfl rfl
    · exact host_piece (val_main_v0 (F := F) x0) 2 1 (by decide) slices_S288x258x258_S288x256x256_0_2_1
        bcast_S288x256x256_S288x1x256x256_0_2_3 j hkv _ rfl rfl rfl
    · exact host_piece (val_main_v0 (F := F) x0) 2 2 (by decide) slices_S288x258x258_S288x256x256_0_2_2
        bcast_S288x256x256_S288x1x256x256_0_2_3 j hkv _ rfl rfl rfl

/-- The reference's result is the reshape of that stack. -/
theorem result_eq (x0 : (⟨S288x256x256, .f32⟩ : BufTy).Contents (Elt F)) :
    val_main_v20 (F := F) x0
      = shapeCast S2592x256x256 (stack9 (val_main_v0 (F := F) x0)) shapeCasts_S288x9x256x256_S2592x256x256 := by
  unfold val_main_v20
  rw [stack_eq]

end Cert.ReferenceIdeal.Hand

end
-- ==== Proof.lean ====
/-
  The certificate of the nine-way shift kernel against its reference.

  Both programs pad each of the 288 input channels with one zero row and column on every side and then lay out, for
  every channel, the nine 256 × 256 sub-images of the padded channel at the offsets (dy, dx), dy, dx ∈ {0, 1, 2}, in the
  order 3·dy + dx, as a [288, 9, 256, 256] array that is finally reshaped to [2592, 256, 256]. The kernel copies the
  sub-images block by block, six channels per grid point; the reference slices, adds a unit axis and concatenates.
  Entry (ch, s, h, w) of the stacked array is on both sides the padded array at (ch, s / 3 + h, s % 3 + w)
  (`Cert.Shift.stack9`: Proof/ShiftSpec.lean; the kernel's side is Proof/KernelValue.lean, the reference's
  Proof/ReferenceValue.lean), the padded arrays are the same term of inputs that agree, and the final reshape is the same
  operation. Only data is moved, so no property of the entries is used and the precondition is never opened.

  The two kernel programs' frames are the generated ones; the reference's frame is its generated run with the result
  dropped; the idealization rewrote nothing, so `preserves` is trivial.
-/
import proofs.«103104_j89936615179047_1_alg».proof.Defs
import proofs.«103104_j89936615179047_1_alg».proof.Proof.Gen.Kernel
import proofs.«103104_j89936615179047_1_alg».proof.Proof.Gen.Kernel.Skeleton
import proofs.«103104_j89936615179047_1_alg».proof.Proof.Gen.Kernel.Launch
import proofs.«103104_j89936615179047_1_alg».proof.Proof.Gen.Kernel.Points
import proofs.«103104_j89936615179047_1_alg».proof.Proof.Gen.Kernel.Frame
import proofs.«103104_j89936615179047_1_alg».proof.Proof.Gen.KernelIdeal
import proofs.«103104_j89936615179047_1_alg».proof.Proof.Gen.KernelIdeal.Skeleton
import proofs.«103104_j89936615179047_1_alg».proof.Proof.Gen.KernelIdeal.Launch
import proofs.«103104_j89936615179047_1_alg».proof.Proof.Gen.KernelIdeal.Points
import proofs.«103104_j89936615179047_1_alg».proof.Proof.Gen.KernelIdeal.Frame
import proofs.«103104_j89936615179047_1_alg».proof.Proof.Gen.ReferenceIdeal
import proofs.«103104_j89936615179047_1_alg».proof.Proof.Gen.Pre_finite_inputs
import proofs.«103104_j89936615179047_1_alg».proof.Proof.Gen.ReferenceIdeal.Run
import proofs.«103104_j89936615179047_1_alg».proof.Proof.Gen.ReferenceIdeal.Read
import proofs.«103104_j89936615179047_1_alg».proof.Proof.ShiftSpec
import proofs.«103104_j89936615179047_1_alg».proof.Proof.KernelValue
import proofs.«103104_j89936615179047_1_alg».proof.Proof.ReferenceValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both result arrays end at the reshape of the nine shifted sub-images of the zero-padded input. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.Hand.result_eq, hagree c,
    Cert.KernelIdeal.Hand.padded_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
